-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x2 : Shape := ⟨2, ![4194304, 2]⟩
abbrev S_ : Shape := ⟨0, ![]⟩

class Facts : Prop where
  bcast_S_S4194304x2 : S_.BroadcastsInDim S4194304x2 (![] : Fin 0 → Fin S4194304x2.rank)
  reducesTo_S4194304x2_S_d0_1 : S4194304x2.ReducesTo [0, 1] S_
  h_S_ : 0 < S_.numel

variable [Facts]

def fn {F : FTy → Type} [FloatOps F] (main_arg0 : FVec F S4194304x2 .f32) : IVec S_ 1 :=
  let main_v0 : FVec F S4194304x2 .f32 := Host.absf main_arg0
  let main_cst : FVec F S_ .f32 := constant S_ .f32 0x7F800000#32
  let main_v1 : FVec F S4194304x2 .f32 := broadcastInDim S4194304x2 ![] bcast_S_S4194304x2 main_cst
  let main_v2 : IVec S4194304x2 1 := cmpf .olt main_v0 main_v1
  let main_c : IVec S_ 1 := constantI S_ 1 1#1
  let main_v3 : IVec S_ 1 := (fun x v => Host.reduce IntOp.andi x v reducesTo_S4194304x2_S_d0_1 h_S_) main_v2 main_c
  main_v3
-- ==== Kernel.lean ====
abbrev S4194304x2 : Shape := ⟨2, ![4194304, 2]⟩
abbrev S4194304x1 : Shape := ⟨2, ![4194304, 1]⟩
abbrev S4194304 : Shape := ⟨1, ![4194304]⟩
abbrev S2048x2048 : Shape := ⟨2, ![2048, 2048]⟩
abbrev S128x2048 : Shape := ⟨2, ![128, 2048]⟩

abbrev nBuf : Space → Nat
  | .hbm => 14
  | .vmem => 8
  | .smem => 0
  | _ => 0

abbrev bufTy : (tb : Table) → Fin (tcTables nBuf tb) → BufTy
  | .hbm, ⟨0, _⟩ => ⟨S4194304x2, .f32⟩
  | .hbm, ⟨1, _⟩ => ⟨S4194304x1, .f32⟩
  | .hbm, ⟨2, _⟩ => ⟨S4194304, .f32⟩
  | .hbm, ⟨3, _⟩ => ⟨S2048x2048, .f32⟩
  | .hbm, ⟨4, _⟩ => ⟨S4194304x1, .f32⟩
  | .hbm, ⟨5, _⟩ => ⟨S4194304, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S4194304, .f32⟩
  | .hbm, ⟨10, _⟩ => ⟨S4194304, .f32⟩
  | .hbm, ⟨11, _⟩ => ⟨S4194304x1, .f32⟩
  | .hbm, ⟨12, _⟩ => ⟨S4194304x1, .f32⟩
  | .hbm, ⟨13, _⟩ => ⟨S4194304x2, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | _, _ => ⟨S4194304x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6_0 : Ref sig .tc := ⟨.hbm, 7, rfl⟩
abbrev main_v6_1 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S4194304x2_S4194304x1_0_0 : S4194304x2.Slices ![0, 0] S4194304x1
  shapeCasts_S4194304x1_S4194304 : S4194304x1.ShapeCasts S4194304
  shapeCasts_S4194304_S2048x2048 : S4194304.ShapeCasts S2048x2048
  slices_S4194304x2_S4194304x1_0_1 : S4194304x2.Slices ![0, 1] S4194304x1
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  shapeCasts_S2048x2048_S4194304 : S2048x2048.ShapeCasts S4194304
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S2048x2048.size a
  hwx0_0 : ∀ i : grid0.Coords, EltTy.bits .f32 = 32 ∨ (Rect.block (s := S2048x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S2048x2048.size a
  hwx0_1 : ∀ i : grid0.Coords, EltTy.bits .f32 = 32 ∨ (Rect.block (s := S2048x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S2048x2048.size a
  hwx0_2 : ∀ i : grid0.Coords, EltTy.bits .f32 = 32 ∨ (Rect.block (s := S2048x2048) S128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x2048.size a ≤ S2048x2048.size a
  hwx0_3 : ∀ i : grid0.Coords, EltTy.bits .f32 = 32 ∨ (Rect.block (s := S2048x2048) S128x2048.size (cc0_transform_3 i) (hinb0_3 i)).WholeWords (EltTy.packing .f32)

variable [Facts₀]

abbrev win0_0 : Pipeline.Window sig grid0 :=
  Pipeline.Window.ofSpec (Memref.whole main_v2) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S128x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S128x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x2 : Shape := ⟨2, ![4194304, 2]⟩
abbrev S3x2 : Shape := ⟨2, ![3, 2]⟩
abbrev S6x2 : Shape := ⟨2, ![6, 2]⟩
abbrev S2x3 : Shape := ⟨2, ![2, 3]⟩
abbrev S4194304x3 : Shape := ⟨2, ![4194304, 3]⟩
abbrev S_ : Shape := ⟨0, ![]⟩
abbrev S4194304 : Shape := ⟨1, ![4194304]⟩
abbrev S2x6 : Shape := ⟨2, ![2, 6]⟩
abbrev S4194304x6 : Shape := ⟨2, ![4194304, 6]⟩
abbrev S4194304x1 : Shape := ⟨2, ![4194304, 1]⟩

abbrev nBuf : Space → Nat
  | .hbm => 40
  | .vmem => 0
  | .smem => 0
  | _ => 0

abbrev bufTy : (tb : Table) → Fin (tcTables nBuf tb) → BufTy
  | .hbm, ⟨0, _⟩ => ⟨S4194304x2, .f32⟩
  | .hbm, ⟨1, _⟩ => ⟨S3x2, .f32⟩
  | .hbm, ⟨2, _⟩ => ⟨S6x2, .f32⟩
  | .hbm, ⟨3, _⟩ => ⟨S2x3, .f32⟩
  | .hbm, ⟨4, _⟩ => ⟨S4194304x3, .f32⟩
  | .hbm, ⟨5, _⟩ => ⟨S4194304x3, .f32⟩
  | .hbm, ⟨6, _⟩ => ⟨S_, .f32⟩
  | .hbm, ⟨7, _⟩ => ⟨S4194304, .f32⟩
  | .hbm, ⟨8, _⟩ => ⟨S_, .f32⟩
  | .hbm, ⟨9, _⟩ => ⟨S4194304, .f32⟩
  | .hbm, ⟨10, _⟩ => ⟨S4194304, .f32⟩
  | .hbm, ⟨11, _⟩ => ⟨S4194304x3, .f32⟩
  | .hbm, ⟨12, _⟩ => ⟨S_, .f32⟩
  | .hbm, ⟨13, _⟩ => ⟨S4194304, .f32⟩
  | .hbm, ⟨14, _⟩ => ⟨S_, .f32⟩
  | .hbm, ⟨15, _⟩ => ⟨S4194304, .f32⟩
  | .hbm, ⟨16, _⟩ => ⟨S4194304, .f32⟩
  | .hbm, ⟨17, _⟩ => ⟨S2x6, .f32⟩
  | .hbm, ⟨18, _⟩ => ⟨S4194304x6, .f32⟩
  | .hbm, ⟨19, _⟩ => ⟨S4194304x6, .f32⟩
  | .hbm, ⟨20, _⟩ => ⟨S_, .f32⟩
  | .hbm, ⟨21, _⟩ => ⟨S4194304, .f32⟩
  | .hbm, ⟨22, _⟩ => ⟨S_, .f32⟩
  | .hbm, ⟨23, _⟩ => ⟨S4194304, .f32⟩
  | .hbm, ⟨24, _⟩ => ⟨S4194304, .f32⟩
  | .hbm, ⟨25, _⟩ => ⟨S4194304, .f32⟩
  | .hbm, ⟨26, _⟩ => ⟨S_, .f32⟩
  | .hbm, ⟨27, _⟩ => ⟨S4194304, .f32⟩
  | .hbm, ⟨28, _⟩ => ⟨S4194304, .f32⟩
  | .hbm, ⟨29, _⟩ => ⟨S4194304, .f32⟩
  | .hbm, ⟨30, _⟩ => ⟨S4194304, .f32⟩
  | .hbm, ⟨31, _⟩ => ⟨S4194304, .f32⟩
  | .hbm, ⟨32, _⟩ => ⟨S4194304, .f32⟩
  | .hbm, ⟨33, _⟩ => ⟨S4194304, .f32⟩
  | .hbm, ⟨34, _⟩ => ⟨S4194304x1, .f32⟩
  | .hbm, ⟨35, _⟩ => ⟨S4194304x1, .f32⟩
  | .hbm, ⟨36, _⟩ => ⟨S4194304x2, .f32⟩
  | .hbm, ⟨37, _⟩ => ⟨S_, .f32⟩
  | .hbm, ⟨38, _⟩ => ⟨S4194304x2, .f32⟩
  | .hbm, ⟨39, _⟩ => ⟨S4194304x2, .f32⟩
  | _, _ => ⟨S4194304x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_3 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_5 : Ref sig .tc := ⟨.hbm, 20, rfl⟩
abbrev main_v13 : Ref sig .tc := ⟨.hbm, 21, rfl⟩
abbrev main_cst_6 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_7 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_8 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  transposes_S3x2_S2x3_1_0 : S3x2.Transposes [1, 0] S2x3
  reducesTo_S4194304x3_S4194304_d1 : S4194304x3.ReducesTo [1] S4194304
  h_S_ : 0 < S_.numel
  bcast_S_S4194304 : S_.BroadcastsInDim S4194304 (![] : Fin 0 → Fin S4194304.rank)
  transposes_S6x2_S2x6_1_0 : S6x2.Transposes [1, 0] S2x6
  reducesTo_S4194304x6_S4194304_d1 : S4194304x6.ReducesTo [1] S4194304
  bcast_S4194304_S4194304x1_0 : S4194304.BroadcastsInDim S4194304x1 (![0] : Fin 1 → Fin S4194304x1.rank)
  concatenates_S4194304x1_S4194304x1_S4194304x2_d1 : Shape.Concatenates [S4194304x1, S4194304x1] S4194304x2 1
  bcast_S_S4194304x2 : S_.BroadcastsInDim S4194304x2 (![] : Fin 0 → Fin S4194304x2.rank)
  dot_S4194304x2_S2x3_S4194304x3_1_0_0_1_n_n_wf : DotDims.WF S4194304x2 S2x3 S4194304x3 [1] [0] [0] [1] [] []
  dot_S4194304x2_S2x6_S4194304x6_1_0_0_1_n_n_wf : DotDims.WF S4194304x2 S2x6 S4194304x6 [1] [0] [0] [1] [] []

variable [Facts₀]

def dot_S4194304x2_S2x3_S4194304x3_1_0_0_1_n_n : DotDims S4194304x2 S2x3 S4194304x3 where
  lhsContracting := [1]
  rhsContracting := [0]
  lhsNonContracting := [0]
  rhsNonContracting := [1]
  lhsBatch := []
  rhsBatch := []
  wf := dot_S4194304x2_S2x3_S4194304x3_1_0_0_1_n_n_wf
def dot_S4194304x2_S2x6_S4194304x6_1_0_0_1_n_n : DotDims S4194304x2 S2x6 S4194304x6 where
  lhsContracting := [1]
  rhsContracting := [0]
  lhsNonContracting := [0]
  rhsNonContracting := [1]
  lhsBatch := []
  rhsBatch := []
  wf := dot_S4194304x2_S2x6_S4194304x6_1_0_0_1_n_n_wf

class Facts : Prop extends Facts₀ where

variable [Facts]
-- ==== Proof.BandSpec.lean ====
/-
  The two energy bands of a two-band lattice Hamiltonian at one wave vector (x, y), on the extended reals, and the
  array of both bands over a list of wave vectors.

  For a wave vector k = (x, y) the off-diagonal element is f(k) = t · Σ_j exp(i δ_j · k) over the three
  nearest-neighbour vectors δ_j, the diagonal element is e(k) = t' · Σ_j cos(ν_j · k) over the six
  next-nearest-neighbour vectors ν_j, and the bands are (e ∓ sqrt(M² + (Re f)² + (Im f)²)) · J.  Every constant is the
  value of its 32-bit float pattern; each sum starts from the zero pattern and adds its terms from the left.
-/
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.Bands

open Idealize.ShloMosaic Idealize.ShloMosaic.ValueIdx

/-- A 32-bit float pattern as an extended real. -/
abbrev c32 (b : BitVec 32) : EReal := Ideal.ofBits .f32 b

/-- The inner product of the wave vector (x, y) with the lattice vector whose coordinates have patterns (a, b). -/
def phase (a b : BitVec 32) (x y : EReal) : EReal := x * c32 a + y * c32 b

/-- Σ_j cos(δ_j · k) over the three nearest neighbours, from the zero pattern, left to right. -/
def hopCos (x y : EReal) : EReal :=
  ((c32 0x00000000#32 + Ideal.cos (phase 0x00000000#32 0xAF1C2960#32 x y))
    + Ideal.cos (phase 0x2F073D6C#32 0x2E9C2960#32 x y))
    + Ideal.cos (phase 0xAF073D6C#32 0x2E9C2960#32 x y)

/-- Σ_j sin(δ_j · k) over the three nearest neighbours, from the zero pattern, left to right. -/
def hopSin (x y : EReal) : EReal :=
  ((c32 0x00000000#32 + Ideal.sin (phase 0x00000000#32 0xAF1C2960#32 x y))
    + Ideal.sin (phase 0x2F073D6C#32 0x2E9C2960#32 x y))
    + Ideal.sin (phase 0xAF073D6C#32 0x2E9C2960#32 x y)

/-- Re f(k) and Im f(k): the hopping amplitude times the two sums. -/
def fRe (x y : EReal) : EReal := c32 0xC0333333#32 * hopCos x y
def fIm (x y : EReal) : EReal := c32 0xC0333333#32 * hopSin x y

/-- Σ_j cos(ν_j · k) over the six next-nearest neighbours, from the zero pattern, left to right. -/
def nnnCos (x y : EReal) : EReal :=
  (((((c32 0x00000000#32 + Ideal.cos (phase 0x2F873D6C#32 0x00000000#32 x y))
    + Ideal.cos (phase 0xAF873D6C#32 0x00000000#32 x y))
    + Ideal.cos (phase 0x2F073D6C#32 0x2F6A3E10#32 x y))
    + Ideal.cos (phase 0xAF073D6C#32 0xAF6A3E10#32 x y))
    + Ideal.cos (phase 0x2F073D6C#32 0xAF6A3E10#32 x y))
    + Ideal.cos (phase 0xAF073D6C#32 0x2F6A3E10#32 x y)

/-- The diagonal element e(k). -/
def diag (x y : EReal) : EReal := c32 0xBDCCCCCD#32 * nnnCos x y

/-- The half gap sqrt(M² + (Re f)² + (Im f)²). -/
def gap (x y : EReal) : EReal := Ideal.sqrt ((c32 0x3B23D70A#32 + fRe x y * fRe x y) + fIm x y * fIm x y)

/-- The lower and the upper band, in joules. -/
def lower (x y : EReal) : EReal := (diag x y - gap x y) * c32 0x203D26D1#32
def upper (x y : EReal) : EReal := (diag x y + gap x y) * c32 0x203D26D1#32

/-! ## Arrays of wave vectors -/

abbrev SN2 : Shape := ⟨2, ![4194304, 2]⟩
abbrev SN1 : Shape := ⟨2, ![4194304, 1]⟩
abbrev SN : Shape := ⟨1, ![4194304]⟩
abbrev SQ : Shape := ⟨2, ![2048, 2048]⟩

/-- Each band along the list of wave vectors: wave vector n is row n of the argument. -/
def lowerVec (k : FVec Ideal SN2 .f32) : FVec Ideal SN .f32 := fun n => lower (k (ix2 (n 0) 0)) (k (ix2 (n 0) 1))
def upperVec (k : FVec Ideal SN2 .f32) : FVec Ideal SN .f32 := fun n => upper (k (ix2 (n 0) 0)) (k (ix2 (n 0) 1))

/-- Two vectors laid side by side as the two columns of one array. -/
def columns (hb : SN.BroadcastsInDim SN1 (![0] : Fin 1 → Fin SN1.rank)) (hc : Shape.Concatenates [SN1, SN1] SN2 1)
    (a b : FVec Ideal SN .f32) : FVec Ideal SN2 .f32 :=
  concatenate SN2 1 [⟨SN1, broadcastInDim SN1 ![0] hb a⟩, ⟨SN1, broadcastInDim SN1 ![0] hb b⟩] hc

/-- The result: row n holds the lower and the upper band at wave vector n. -/
def bands (hb : SN.BroadcastsInDim SN1 (![0] : Fin 1 → Fin SN1.rank)) (hc : Shape.Concatenates [SN1, SN1] SN2 1)
    (k : FVec Ideal SN2 .f32) : FVec Ideal SN2 .f32 :=
  columns hb hc (lowerVec k) (upperVec k)

/-- A vector made a one-column array reads, at row n, its entry n. -/
theorem column_apply (hb : SN.BroadcastsInDim SN1 (![0] : Fin 1 → Fin SN1.rank)) (a : FVec Ideal SN .f32)
    (n : Fin 4194304) (u : Fin 1) : broadcastInDim SN1 ![0] hb a (ix2 n u) = a (ix1 n) :=
  broadcastInDim_apply _ hb a _ (ix1 n) fun d => by
    match d with
    | ⟨0, _⟩ => rfl

/-- The first column of the two-column array is the first vector. -/
theorem columns_apply_zero (hb : SN.BroadcastsInDim SN1 (![0] : Fin 1 → Fin SN1.rank))
    (hc : Shape.Concatenates [SN1, SN1] SN2 1) (a b : FVec Ideal SN .f32) (n : Fin 4194304) :
    columns hb hc a b (ix2 n 0) = a (ix1 n) := by
  unfold columns
  refine (concatenate_pair_apply_left (t := SN2) (s₁ := SN1) (s₂ := SN1) (1 : Fin 2) _ _ hc
    (ix2 n (0 : Fin 2)) rfl (ix2 n (0 : Fin 1)) (fun d => ?_)).trans (column_apply hb a n 0)
  match d with
  | ⟨0, _⟩ => rfl
  | ⟨1, _⟩ => rfl

/-- The second column of the two-column array is the second vector. -/
theorem columns_apply_one (hb : SN.BroadcastsInDim SN1 (![0] : Fin 1 → Fin SN1.rank))
    (hc : Shape.Concatenates [SN1, SN1] SN2 1) (a b : FVec Ideal SN .f32) (n : Fin 4194304) :
    columns hb hc a b (ix2 n 1) = b (ix1 n) := by
  unfold columns
  refine (concatenate_pair_apply_right (t := SN2) (s₁ := SN1) (s₂ := SN1) (1 : Fin 2) _ _ hc
    (ix2 n (1 : Fin 2)) rfl rfl (ix2 n (0 : Fin 1)) (fun d hd => ?_) rfl).trans (column_apply hb b n 0)
  match d, hd with
  | ⟨0, _⟩, _ => rfl
  | ⟨1, _⟩, hd => exact absurd rfl hd

/-! ## The square arrangement: wave vector n at row n / 2048, column n % 2048 -/

/-- The position of entry (r, c) of the square in the list. -/
def flat (i : SQ.Idx) : Fin 4194304 :=
  ⟨(i 0).val * 2048 + (i 1).val, by have h0 : (i 0).val < 2048 := (i 0).isLt; have h1 : (i 1).val < 2048 := (i 1).isLt; omega⟩

/-- Coordinate s of every wave vector, arranged in the square. -/
def plane (s : Fin 2) (k : FVec Ideal SN2 .f32) : FVec Ideal SQ .f32 := fun i => k (ix2 (flat i) s)

/-- A band computed entry by entry on the square. -/
def onSquare (g : EReal → EReal → EReal) (X Y : FVec Ideal SQ .f32) : FVec Ideal SQ .f32 := fun i => g (X i) (Y i)

/-- A band computed on the square and read back as a list is the band along the list. -/
theorem flatten_lower (h : SQ.ShapeCasts SN) (k : FVec Ideal SN2 .f32) :
    shapeCast SN (onSquare lower (plane 0 k) (plane 1 k)) h = lowerVec k := by
  funext n
  have hn : (n 0).val < 4194304 := (n 0).isLt
  let q : SQ.Idx := ix2 ⟨(n 0).val / 2048, by omega⟩ ⟨(n 0).val % 2048, Nat.mod_lt _ (by norm_num)⟩
  have hq : flat q = n 0 := Fin.ext (by show (n 0).val / 2048 * 2048 + (n 0).val % 2048 = (n 0).val; omega)
  rw [shapeCast_apply _ h n q (by
    rw [Shape.rowMajor_val_two, Shape.rowMajor_val_one]
    show (n 0).val / 2048 * 2048 + (n 0).val % 2048 = (n 0).val; omega)]
  show lower (k (ix2 (flat q) 0)) (k (ix2 (flat q) 1)) = _
  rw [hq]; rfl

theorem flatten_upper (h : SQ.ShapeCasts SN) (k : FVec Ideal SN2 .f32) :
    shapeCast SN (onSquare upper (plane 0 k) (plane 1 k)) h = upperVec k := by
  funext n
  have hn : (n 0).val < 4194304 := (n 0).isLt
  let q : SQ.Idx := ix2 ⟨(n 0).val / 2048, by omega⟩ ⟨(n 0).val % 2048, Nat.mod_lt _ (by norm_num)⟩
  have hq : flat q = n 0 := Fin.ext (by show (n 0).val / 2048 * 2048 + (n 0).val % 2048 = (n 0).val; omega)
  rw [shapeCast_apply _ h n q (by
    rw [Shape.rowMajor_val_two, Shape.rowMajor_val_one]
    show (n 0).val / 2048 * 2048 + (n 0).val % 2048 = (n 0).val; omega)]
  show upper (k (ix2 (flat q) 0)) (k (ix2 (flat q) 1)) = _
  rw [hq]; rfl

end Cert.Bands

end
-- ==== Proof.KernelBody.lean ====
/-
  What the kernel body leaves in its two output blocks: at every entry of the block, the lower and the upper band of the
  wave vector whose two coordinates the two input blocks hold at that entry.  Every operation of the body acts entry by
  entry (products with splat constants, cosines and sines, running sums from a zero splat, a square root), so an output
  block at an entry is the same scalar expression of the two input entries.
-/
import proofs.«143758_j32530082300274_1_alg».proof.Proof.Gen.KernelIdeal.Frame
import proofs.«143758_j32530082300274_1_alg».proof.Proof.BandSpec
import Idealize.ShloMosaic.Lib.Pipeline.Value

noncomputable section

namespace Cert.KernelIdeal.Body

open Cert.KernelIdeal Cert.KernelIdeal.Gen Cert.Bands
open Idealize.ShloMosaic Idealize.ShloMosaic.ValueIdx

/-- The store's offsets are zero on both axes. -/
theorem zeros : (![0, 0] : Fin 2 → Nat) = fun _ => 0 := funext fun a => by fin_cases a <;> rfl

/-- The value stored to the first output block, at an entry. -/
theorem lower_entry (x0 x1 : Vec Ideal S128x2048 .f32) (y : S128x2048.Idx) :
    k0_pay1 (k0_pay15 (k0_pay3 x0) (k0_pay4 x1) (k0_pay8 x0 x1) (k0_pay9 x0 x1) (k0_pay10 (F := Ideal)) (k0_pay11 x0) (k0_pay12 x1))
        (Scalar.ofBits .f32 0x203D26D1#32) y
      = lower (x0 y) (x1 y) := by
  simp only [k0_pay1, k0_pay15, k0_pay13, k0_pay14, k0_pay8, k0_pay9, k0_pay5, k0_pay6, k0_pay7, k0_pay10, k0_pay11,
    k0_pay12, k0_pay3, k0_pay4, shapeCast_self]
  rfl

/-- The value stored to the second output block, at an entry. -/
theorem upper_entry (x0 x1 : Vec Ideal S128x2048 .f32) (y : S128x2048.Idx) :
    k0_pay2 (k0_pay13 (k0_pay3 x0) (k0_pay4 x1) (k0_pay10 (F := Ideal)) (k0_pay11 x0) (k0_pay12 x1))
        (k0_pay14 (k0_pay8 x0 x1) (k0_pay9 x0 x1)) y
      = upper (x0 y) (x1 y) := by
  simp only [k0_pay2, k0_pay13, k0_pay14, k0_pay8, k0_pay9, k0_pay5, k0_pay6, k0_pay7, k0_pay10, k0_pay11,
    k0_pay12, k0_pay3, k0_pay4, shapeCast_self]
  rfl

/-- The first output block after the body. -/
theorem lower_block (x0 x1 : Vec Ideal S128x2048 .f32) :
    out0_2 (F := Ideal) x0 x1 = fun y => lower (x0 y) (x1 y) := by
  unfold out0_2
  rw [View.canon_unit_zero zeros]
  simp only [View.ld_unit_zero (S := S128x2048) zeros]
  exact funext fun y => lower_entry x0 x1 y

/-- The second output block after the body. -/
theorem upper_block (x0 x1 : Vec Ideal S128x2048 .f32) :
    out0_3 (F := Ideal) x0 x1 = fun y => upper (x0 y) (x1 y) := by
  unfold out0_3
  rw [View.canon_unit_zero zeros]
  simp only [View.ld_unit_zero (S := S128x2048) zeros]
  exact funext fun y => upper_entry x0 x1 y

end Cert.KernelIdeal.Body

end
-- ==== Proof.KernelValue.lean ====
/-
  The kernel's program ends with the two bands in its result.

  Before the region the argument's two columns are cut out, flattened and folded into two squares: entry (r, c) of square
  s is coordinate s of wave vector 2048 r + c.  Grid point t stages rows 128 t … 128 t + 127 of both squares and writes the
  same rows of the two output squares; the sixteen blocks tile the squares, so each output square ends holding its band
  at every entry.  After the region the squares are flattened back to lists and laid as the two columns of the result.
-/
import proofs.«143758_j32530082300274_1_alg».proof.Proof.KernelBody
import Idealize.ShloMosaic.Lib.StableHlo.Run

set_option maxRecDepth 16384

noncomputable section

namespace Cert.KernelIdeal.Arrays

open Cert.KernelIdeal Cert.KernelIdeal.Gen Cert.KernelIdeal.Body Cert.Bands
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-! ## The two squares the region finds -/

/-- Column s of the argument, flattened and folded into a square, is coordinate s of every wave vector. -/
theorem fold_column (s : Fin 2) (off : Fin 2 → Nat) (hoff : off = ![0, s.val]) (hs : S4194304x2.Slices off S4194304x1)
    (k : FVec Ideal S4194304x2 .f32) :
    shapeCast S2048x2048 (shapeCast S4194304 (extractStridedSlice S4194304x1 off k hs) shapeCasts_S4194304x1_S4194304)
      shapeCasts_S4194304_S2048x2048 = plane s k := by
  subst hoff
  funext i
  rw [shapeCast_apply _ shapeCasts_S4194304_S2048x2048 i (ix1 (flat i)) (by
      rw [Shape.rowMajor_val_one, Shape.rowMajor_val_two]; rfl),
    shapeCast_apply _ shapeCasts_S4194304x1_S4194304 (ix1 (flat i)) (ix2 (flat i) (0 : Fin 1)) (by
      rw [Shape.rowMajor_val_two, Shape.rowMajor_val_one]; show (flat i).val * 1 + 0 = (flat i).val; omega)]
  exact extractStridedSlice_apply _ k hs (ix2 (flat i) (0 : Fin 1)) (ix2 (flat i) s) fun a => by
    match a with
    | ⟨0, _⟩ => show (flat i).val = 0 + (flat i).val; omega
    | ⟨1, _⟩ => show s.val = s.val + 0; omega

/-- The first input window's array at the region's entry. -/
theorem entry_x (c : Dev nD) :
    (V m c main_v2 : S2048x2048.Idx → EReal) = plane 0 (m ((c : Thread nD τ).loc main_arg0)) := by
  have e : (V m c main_v2 : S2048x2048.Idx → EReal)
      = shapeCast S2048x2048 (shapeCast S4194304 (extractStridedSlice S4194304x1 ![0, 0] (m ((c : Thread nD τ).loc main_arg0))
          slices_S4194304x2_S4194304x1_0_0) shapeCasts_S4194304x1_S4194304) shapeCasts_S4194304_S2048x2048 := by
    show StableHlo.after hostOps0 (fun b => m (c, b)) (Proc.devRef .tc main_v2) = _
    after_results
    rfl
  rw [e]
  exact fold_column 0 _ rfl _ _

/-- The second input window's array at the region's entry. -/
theorem entry_y (c : Dev nD) :
    (V m c main_v5 : S2048x2048.Idx → EReal) = plane 1 (m ((c : Thread nD τ).loc main_arg0)) := by
  have e : (V m c main_v5 : S2048x2048.Idx → EReal)
      = shapeCast S2048x2048 (shapeCast S4194304 (extractStridedSlice S4194304x1 ![0, 1] (m ((c : Thread nD τ).loc main_arg0))
          slices_S4194304x2_S4194304x1_0_1) shapeCasts_S4194304x1_S4194304) shapeCasts_S4194304_S2048x2048 := by
    show StableHlo.after hostOps0 (fun b => m (c, b)) (Proc.devRef .tc main_v5) = _
    after_results
    rfl
  rw [e]
  exact fold_column 1 _ rfl _ _

/-! ## The grid -/

/-- All four windows move together: at point t the block index is (t, 0). -/
theorem block_index : ∀ t : Fin cfg0.N,
    win0_0.index t (0 : Fin 2) = win0_2.index t (0 : Fin 2) ∧ win0_0.index t (1 : Fin 2) = win0_2.index t (1 : Fin 2)
    ∧ win0_1.index t (0 : Fin 2) = win0_2.index t (0 : Fin 2) ∧ win0_1.index t (1 : Fin 2) = win0_2.index t (1 : Fin 2)
    ∧ win0_3.index t (0 : Fin 2) = win0_2.index t (0 : Fin 2) ∧ win0_3.index t (1 : Fin 2) = win0_2.index t (1 : Fin 2)
    ∧ win0_2.index t (1 : Fin 2) = 0 :=
  (by decide +kernel : ∀ t : Fin grid0.N, _)

/-- Every row block is some point's. -/
theorem block_onto : ∀ q : Fin 16, ∃ t : Fin cfg0.N, win0_2.index t (0 : Fin 2) = q.val :=
  (by decide +kernel : ∀ q : Fin 16, ∃ t : Fin grid0.N, win0_2.index t (0 : Fin 2) = q.val)

/-- An input block and an output block at one point sit at the same place of their squares. -/
theorem emb_x (t : Fin cfg0.N) (j : S128x2048.Idx) : ((cfg0.win 0).blk t).view.emb j = ((cfg0.win 2).blk t).view.emb j := by
  obtain ⟨e0, e1, -⟩ := block_index t
  funext a; apply Fin.ext
  match a with
  | ⟨0, _⟩ => show win0_0.index t (0 : Fin 2) * 128 + 1 * (j 0).val = win0_2.index t (0 : Fin 2) * 128 + 1 * (j 0).val; omega
  | ⟨1, _⟩ => show win0_0.index t (1 : Fin 2) * 2048 + 1 * (j 1).val = win0_2.index t (1 : Fin 2) * 2048 + 1 * (j 1).val; omega

theorem emb_y (t : Fin cfg0.N) (j : S128x2048.Idx) : ((cfg0.win 1).blk t).view.emb j = ((cfg0.win 2).blk t).view.emb j := by
  obtain ⟨-, -, e2, e3, -⟩ := block_index t
  funext a; apply Fin.ext
  match a with
  | ⟨0, _⟩ => show win0_1.index t (0 : Fin 2) * 128 + 1 * (j 0).val = win0_2.index t (0 : Fin 2) * 128 + 1 * (j 0).val; omega
  | ⟨1, _⟩ => show win0_1.index t (1 : Fin 2) * 2048 + 1 * (j 1).val = win0_2.index t (1 : Fin 2) * 2048 + 1 * (j 1).val; omega

theorem emb_hi (t : Fin cfg0.N) (j : S128x2048.Idx) : ((cfg0.win 3).blk t).view.emb j = ((cfg0.win 2).blk t).view.emb j := by
  obtain ⟨-, -, -, -, e4, e5, -⟩ := block_index t
  funext a; apply Fin.ext
  match a with
  | ⟨0, _⟩ => show win0_3.index t (0 : Fin 2) * 128 + 1 * (j 0).val = win0_2.index t (0 : Fin 2) * 128 + 1 * (j 0).val; omega
  | ⟨1, _⟩ => show win0_3.index t (1 : Fin 2) * 2048 + 1 * (j 1).val = win0_2.index t (1 : Fin 2) * 2048 + 1 * (j 1).val; omega

/-! ## What a point writes back -/

/-- Point t writes back block t of the lower band computed on the two squares. -/
theorem flushed_lower (c : Dev nD) (t : Fin cfg0.N) :
    (dats m 0 c).flushed 2 t
      = ((cfg0.win 2).blk t).view.read (Elt Ideal) (onSquare lower (V m c main_v2) (V m c main_v5)) := by
  show (cfg0.win 2).cut (grid0.coords t) ((dats m 0 c).after 2 t) = _
  rw [after0_2, lower_block]
  funext j
  show lower (V m c main_v2 (((cfg0.win 0).blk t).view.emb j)) (V m c main_v5 (((cfg0.win 1).blk t).view.emb j))
    = lower (V m c main_v2 (((cfg0.win 2).blk t).view.emb j)) (V m c main_v5 (((cfg0.win 2).blk t).view.emb j))
  rw [emb_x, emb_y]

/-- Point t writes back block t of the upper band computed on the two squares. -/
theorem flushed_upper (c : Dev nD) (t : Fin cfg0.N) :
    (dats m 0 c).flushed 3 t
      = ((cfg0.win 3).blk t).view.read (Elt Ideal) (onSquare upper (V m c main_v2) (V m c main_v5)) := by
  show (cfg0.win 3).cut (grid0.coords t) ((dats m 0 c).after 3 t) = _
  rw [after0_3, upper_block]
  funext j
  show upper (V m c main_v2 (((cfg0.win 0).blk t).view.emb j)) (V m c main_v5 (((cfg0.win 1).blk t).view.emb j))
    = upper (V m c main_v2 (((cfg0.win 3).blk t).view.emb j)) (V m c main_v5 (((cfg0.win 3).blk t).view.emb j))
  rw [emb_x, emb_y, emb_hi]

/-! ## The blocks tile the squares -/

/-- An entry of the square is in point t's block iff its row is among the block's 128 rows. -/
theorem mem_block_lower (t : Fin cfg0.N) (i : S2048x2048.Idx) :
    i ∈ ((cfg0.win 2).blk t).view.set ↔ ∀ a : Fin 2, win0_2.index t a * S128x2048.size a ≤ (i a).val
      ∧ (i a).val < win0_2.index t a * S128x2048.size a + S128x2048.size a := by
  show i ∈ ((View.whole main_v6_0).slice (win0_2.rect t)).set ↔ _
  rw [View.set_slice_whole, Rect.mem_set_unit]
  exact Iff.rfl

theorem mem_block_upper (t : Fin cfg0.N) (i : S2048x2048.Idx) :
    i ∈ ((cfg0.win 3).blk t).view.set ↔ ∀ a : Fin 2, win0_3.index t a * S128x2048.size a ≤ (i a).val
      ∧ (i a).val < win0_3.index t a * S128x2048.size a + S128x2048.size a := by
  show i ∈ ((View.whole main_v6_1).slice (win0_3.rect t)).set ↔ _
  rw [View.set_slice_whole, Rect.mem_set_unit]
  exact Iff.rfl

/-- Every entry of the first output square is in the block of the point its row block names. -/
theorem cover_lower (i : S2048x2048.Idx) :
    ∃ t : Fin cfg0.N, (cfg0.win 2).flush t = true ∧ i ∈ ((cfg0.win 2).blk t).view.set := by
  have hi0 : (i 0).val < 2048 := (i 0).isLt
  have hi1 : (i 1).val < 2048 := (i 1).isLt
  obtain ⟨t, ht⟩ := block_onto ⟨(i 0).val / 128, by omega⟩
  have q0 : win0_2.index t (0 : Fin 2) = (i 0).val / 128 := ht
  obtain ⟨-, -, -, -, -, -, q1⟩ := block_index t
  refine ⟨t, flush0_2 t, ?_⟩
  rw [mem_block_lower]
  intro a
  match a with
  | ⟨0, _⟩ => show win0_2.index t (0 : Fin 2) * 128 ≤ (i 0).val ∧ (i 0).val < win0_2.index t (0 : Fin 2) * 128 + 128; omega
  | ⟨1, _⟩ => show win0_2.index t (1 : Fin 2) * 2048 ≤ (i 1).val ∧ (i 1).val < win0_2.index t (1 : Fin 2) * 2048 + 2048; omega

/-- Every entry of the second output square likewise. -/
theorem cover_upper (i : S2048x2048.Idx) :
    ∃ t : Fin cfg0.N, (cfg0.win 3).flush t = true ∧ i ∈ ((cfg0.win 3).blk t).view.set := by
  have hi0 : (i 0).val < 2048 := (i 0).isLt
  have hi1 : (i 1).val < 2048 := (i 1).isLt
  obtain ⟨t, ht⟩ := block_onto ⟨(i 0).val / 128, by omega⟩
  have q0 : win0_2.index t (0 : Fin 2) = (i 0).val / 128 := ht
  obtain ⟨-, -, -, -, e4, e5, q1⟩ := block_index t
  refine ⟨t, flush0_3 t, ?_⟩
  rw [mem_block_upper]
  intro a
  match a with
  | ⟨0, _⟩ => show win0_3.index t (0 : Fin 2) * 128 ≤ (i 0).val ∧ (i 0).val < win0_3.index t (0 : Fin 2) * 128 + 128; omega
  | ⟨1, _⟩ => show win0_3.index t (1 : Fin 2) * 2048 ≤ (i 1).val ∧ (i 1).val < win0_3.index t (1 : Fin 2) * 2048 + 2048; omega

/-! ## The output squares after the region -/

theorem final_lower (c : Dev nD) :
    (dats m 0 c).arrAt 2 cfg0.N = onSquare lower (plane 0 (m ((c : Thread nD τ).loc main_arg0))) (plane 1 (m ((c : Thread nD τ).loc main_arg0))) := by
  rw [← entry_x m c, ← entry_y m c]
  exact (dats m 0 c).arrAt_eq_of_cover 2 _ (fun t _ => flushed_lower m c t) cover_lower

theorem final_upper (c : Dev nD) :
    (dats m 0 c).arrAt 3 cfg0.N = onSquare upper (plane 0 (m ((c : Thread nD τ).loc main_arg0))) (plane 1 (m ((c : Thread nD τ).loc main_arg0))) := by
  rw [← entry_x m c, ← entry_y m c]
  exact (dats m 0 c).arrAt_eq_of_cover 3 _ (fun t _ => flushed_upper m c t) cover_upper

/-! ## The lines after the region, and the run -/

/-- The result buffer after the lines that follow the region: the two output squares flattened and laid as columns. -/
theorem result_eq (c : Dev nD) :
    Pipeline.afterTail₀ cfgs (dats m) 0 (V0 m) [hostOps1] c main_v11
      = bands bcast_S4194304_S4194304x1_0 concatenates_S4194304x1_S4194304x1_S4194304x2_d1 (m ((c : Thread nD τ).loc main_arg0)) := by
  have a2 := (Pipeline.withArrays_arr spec0 launch0.win.arr_inj c (V0 m c) (fun w => (dats m 0 c).arrAt w cfg0.N) 2).trans (final_lower m c)
  have a3 := (Pipeline.withArrays_arr spec0 launch0.win.arr_inj c (V0 m c) (fun w => (dats m 0 c).arrAt w cfg0.N) 3).trans (final_upper m c)
  unfold Pipeline.afterTail₀
  show StableHlo.after hostOps1 _ (Proc.devRef .tc main_v11) = _
  after_results
  show columns bcast_S4194304_S4194304x1_0 concatenates_S4194304x1_S4194304x1_S4194304x2_d1
      (shapeCast S4194304 (Pipeline.withArrays spec0 c (V0 m c) (fun w => (dats m 0 c).arrAt w cfg0.N)
        (Proc.devRef .tc (Pipeline.arrRef spec0 2))) shapeCasts_S2048x2048_S4194304)
      (shapeCast S4194304 (Pipeline.withArrays spec0 c (V0 m c) (fun w => (dats m 0 c).arrAt w cfg0.N)
        (Proc.devRef .tc (Pipeline.arrRef spec0 3))) shapeCasts_S2048x2048_S4194304) = _
  rw [a2, a3, flatten_lower, flatten_upper]
  rfl

/-- From any memory with zero counters every weakly fair execution terminates with the two bands of the argument in the
    result buffer and the argument unchanged. -/
theorem run : θ_run defs (onTc (τ := τ) (main (F := Ideal))) ⟨m, fun _ => 0, ρ⟩ fun r => ∀ c : Dev nD,
      r.2.mem ((c.tc : Thread nD τ).loc main_v11)
        = bands bcast_S4194304_S4194304x1_0 concatenates_S4194304x1_S4194304x1_S4194304x2_d1 (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v11 (Pipeline.mem_restRefs_of main_v11 (by decide) (by decide))).trans (result_eq m c),
       ((h c).2 main_arg0 (Pipeline.mem_restRefs_of main_arg0 (by decide) (by decide))).trans (W_main_arg0 m (dats m) c)⟩)
    (run_main m ρ)

end Cert.KernelIdeal.Arrays

end
-- ==== Proof.RefRun.lean ====
/-
  The reference's program as the list of its host operations, the array its result buffer ends holding written as a
  composition of named stages, and its run: every weakly fair execution ends with the result at that composition of
  the argument and the argument unchanged.

  The stages: the inner products of every wave vector with the three nearest-neighbour vectors and with the six
  next-nearest-neighbour vectors (a product with a transposed table of constants), the cosine and sine sums over a row of
  them from zero, the amplitudes times those sums, the square root of the mass term plus the two squares, and the two
  bands laid as two columns and scaled to joules.
-/
import proofs.«143758_j32530082300274_1_alg».proof.Proof.Gen.ReferenceIdeal
import Idealize.ShloMosaic.Lib.StableHlo.Run

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The program's 39 operations, in order. -/
abbrev ops : List (HloOp τ sig (Elt F)) :=
  [ nullary main_cst (fun i => FloatOps.ofBits .f32 (lit0 (S3x2.rowMajor i))),
    nullary main_cst_0 (fun i => FloatOps.ofBits .f32 (lit1 (S6x2.rowMajor i))),
    unary main_cst main_v0 ((transpose S2x3 [1, 0] · transposes_S3x2_S2x3_1_0) : (⟨S3x2, .f32⟩ : BufTy).Contents (Elt F) → (⟨S2x3, .f32⟩ : BufTy).Contents (Elt F)),
    binary main_arg0 main_v0 main_v1 ((fun l r => Host.dotGeneral dot_S4194304x2_S2x3_S4194304x3_1_0_0_1_n_n none l r) : (⟨S4194304x2, .f32⟩ : BufTy).Contents (Elt F) → (⟨S2x3, .f32⟩ : BufTy).Contents (Elt F) → (⟨S4194304x3, .f32⟩ : BufTy).Contents (Elt F)),
    unary main_v1 main_v2 (Host.cos : (⟨S4194304x3, .f32⟩ : BufTy).Contents (Elt F) → (⟨S4194304x3, .f32⟩ : BufTy).Contents (Elt F)),
    nullary main_cst_1 (constant S_ .f32 0x00000000#32),
    binary main_v2 main_cst_1 main_v3 ((fun x v => Host.reduceAdd x v reducesTo_S4194304x3_S4194304_d1 h_S_) : (⟨S4194304x3, .f32⟩ : BufTy).Contents (Elt F) → (⟨S_, .f32⟩ : BufTy).Contents (Elt F) → (⟨S4194304, .f32⟩ : BufTy).Contents (Elt F)),
    nullary main_cst_2 (constant S_ .f32 0xC0333333#32),
    unary main_cst_2 main_v4 (broadcastInDim S4194304 ![] bcast_S_S4194304 : (⟨S_, .f32⟩ : BufTy).Contents (Elt F) → (⟨S4194304, .f32⟩ : BufTy).Contents (Elt F)),
    binary main_v4 main_v3 main_v5 (mulf : (⟨S4194304, .f32⟩ : BufTy).Contents (Elt F) → (⟨S4194304, .f32⟩ : BufTy).Contents (Elt F) → (⟨S4194304, .f32⟩ : BufTy).Contents (Elt F)),
    unary main_v1 main_v6 (Host.sin : (⟨S4194304x3, .f32⟩ : BufTy).Contents (Elt F) → (⟨S4194304x3, .f32⟩ : BufTy).Contents (Elt F)),
    nullary main_cst_3 (constant S_ .f32 0x00000000#32),
    binary main_v6 main_cst_3 main_v7 ((fun x v => Host.reduceAdd x v reducesTo_S4194304x3_S4194304_d1 h_S_) : (⟨S4194304x3, .f32⟩ : BufTy).Contents (Elt F) → (⟨S_, .f32⟩ : BufTy).Contents (Elt F) → (⟨S4194304, .f32⟩ : BufTy).Contents (Elt F)),
    nullary main_cst_4 (constant S_ .f32 0xC0333333#32),
    unary main_cst_4 main_v8 (broadcastInDim S4194304 ![] bcast_S_S4194304 : (⟨S_, .f32⟩ : BufTy).Contents (Elt F) → (⟨S4194304, .f32⟩ : BufTy).Contents (Elt F)),
    binary main_v8 main_v7 main_v9 (mulf : (⟨S4194304, .f32⟩ : BufTy).Contents (Elt F) → (⟨S4194304, .f32⟩ : BufTy).Contents (Elt F) → (⟨S4194304, .f32⟩ : BufTy).Contents (Elt F)),
    unary main_cst_0 main_v10 ((transpose S2x6 [1, 0] · transposes_S6x2_S2x6_1_0) : (⟨S6x2, .f32⟩ : BufTy).Contents (Elt F) → (⟨S2x6, .f32⟩ : BufTy).Contents (Elt F)),
    binary main_arg0 main_v10 main_v11 ((fun l r => Host.dotGeneral dot_S4194304x2_S2x6_S4194304x6_1_0_0_1_n_n none l r) : (⟨S4194304x2, .f32⟩ : BufTy).Contents (Elt F) → (⟨S2x6, .f32⟩ : BufTy).Contents (Elt F) → (⟨S4194304x6, .f32⟩ : BufTy).Contents (Elt F)),
    unary main_v11 main_v12 (Host.cos : (⟨S4194304x6, .f32⟩ : BufTy).Contents (Elt F) → (⟨S4194304x6, .f32⟩ : BufTy).Contents (Elt F)),
    nullary main_cst_5 (constant S_ .f32 0x00000000#32),
    binary main_v12 main_cst_5 main_v13 ((fun x v => Host.reduceAdd x v reducesTo_S4194304x6_S4194304_d1 h_S_) : (⟨S4194304x6, .f32⟩ : BufTy).Contents (Elt F) → (⟨S_, .f32⟩ : BufTy).Contents (Elt F) → (⟨S4194304, .f32⟩ : BufTy).Contents (Elt F)),
    nullary main_cst_6 (constant S_ .f32 0xBDCCCCCD#32),
    unary main_cst_6 main_v14 (broadcastInDim S4194304 ![] bcast_S_S4194304 : (⟨S_, .f32⟩ : BufTy).Contents (Elt F) → (⟨S4194304, .f32⟩ : BufTy).Contents (Elt F)),
    binary main_v14 main_v13 main_v15 (mulf : (⟨S4194304, .f32⟩ : BufTy).Contents (Elt F) → (⟨S4194304, .f32⟩ : BufTy).Contents (Elt F) → (⟨S4194304, .f32⟩ : BufTy).Contents (Elt F)),
    binary main_v5 main_v5 main_v16 (mulf : (⟨S4194304, .f32⟩ : BufTy).Contents (Elt F) → (⟨S4194304, .f32⟩ : BufTy).Contents (Elt F) → (⟨S4194304, .f32⟩ : BufTy).Contents (Elt F)),
    nullary main_cst_7 (constant S_ .f32 0x3B23D70A#32),
    unary main_cst_7 main_v17 (broadcastInDim S4194304 ![] bcast_S_S4194304 : (⟨S_, .f32⟩ : BufTy).Contents (Elt F) → (⟨S4194304, .f32⟩ : BufTy).Contents (Elt F)),
    binary main_v17 main_v16 main_v18 (addf : (⟨S4194304, .f32⟩ : BufTy).Contents (Elt F) → (⟨S4194304, .f32⟩ : BufTy).Contents (Elt F) → (⟨S4194304, .f32⟩ : BufTy).Contents (Elt F)),
    binary main_v9 main_v9 main_v19 (mulf : (⟨S4194304, .f32⟩ : BufTy).Contents (Elt F) → (⟨S4194304, .f32⟩ : BufTy).Contents (Elt F) → (⟨S4194304, .f32⟩ : BufTy).Contents (Elt F)),
    binary main_v18 main_v19 main_v20 (addf : (⟨S4194304, .f32⟩ : BufTy).Contents (Elt F) → (⟨S4194304, .f32⟩ : BufTy).Contents (Elt F) → (⟨S4194304, .f32⟩ : BufTy).Contents (Elt F)),
    unary main_v20 main_v21 (Host.sqrt : (⟨S4194304, .f32⟩ : BufTy).Contents (Elt F) → (⟨S4194304, .f32⟩ : BufTy).Contents (Elt F)),
    binary main_v15 main_v21 main_v22 (subf : (⟨S4194304, .f32⟩ : BufTy).Contents (Elt F) → (⟨S4194304, .f32⟩ : BufTy).Contents (Elt F) → (⟨S4194304, .f32⟩ : BufTy).Contents (Elt F)),
    binary main_v15 main_v21 main_v23 (addf : (⟨S4194304, .f32⟩ : BufTy).Contents (Elt F) → (⟨S4194304, .f32⟩ : BufTy).Contents (Elt F) → (⟨S4194304, .f32⟩ : BufTy).Contents (Elt F)),
    unary main_v22 main_v24 (broadcastInDim S4194304x1 ![0] bcast_S4194304_S4194304x1_0 : (⟨S4194304, .f32⟩ : BufTy).Contents (Elt F) → (⟨S4194304x1, .f32⟩ : BufTy).Contents (Elt F)),
    unary main_v23 main_v25 (broadcastInDim S4194304x1 ![0] bcast_S4194304_S4194304x1_0 : (⟨S4194304, .f32⟩ : BufTy).Contents (Elt F) → (⟨S4194304x1, .f32⟩ : BufTy).Contents (Elt F)),
    binary main_v24 main_v25 main_v26 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    nullary main_cst_8 (constant S_ .f32 0x203D26D1#32),
    unary main_cst_8 main_v27 (broadcastInDim S4194304x2 ![] bcast_S_S4194304x2 : (⟨S_, .f32⟩ : BufTy).Contents (Elt F) → (⟨S4194304x2, .f32⟩ : BufTy).Contents (Elt F)),
    binary main_v26 main_v27 main_v28 (mulf : (⟨S4194304x2, .f32⟩ : BufTy).Contents (Elt F) → (⟨S4194304x2, .f32⟩ : BufTy).Contents (Elt F) → (⟨S4194304x2, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., unary_bufs_sub .., nullary_bufs_sub .., binary_bufs_sub .., nullary_bufs_sub .., unary_bufs_sub .., binary_bufs_sub .., unary_bufs_sub .., nullary_bufs_sub .., binary_bufs_sub .., nullary_bufs_sub .., unary_bufs_sub .., binary_bufs_sub .., unary_bufs_sub .., binary_bufs_sub .., unary_bufs_sub .., nullary_bufs_sub .., binary_bufs_sub .., nullary_bufs_sub .., unary_bufs_sub .., binary_bufs_sub .., binary_bufs_sub .., nullary_bufs_sub .., unary_bufs_sub .., binary_bufs_sub .., binary_bufs_sub .., binary_bufs_sub .., unary_bufs_sub .., binary_bufs_sub .., binary_bufs_sub .., unary_bufs_sub .., unary_bufs_sub .., binary_bufs_sub .., nullary_bufs_sub .., unary_bufs_sub .., binary_bufs_sub ..⟩

/-- The operations up to the two band vectors, and the six that lay them as columns and scale them. -/
abbrev opsHead : List (HloOp τ sig (Elt F)) :=
  [ nullary main_cst (fun i => FloatOps.ofBits .f32 (lit0 (S3x2.rowMajor i))),
    nullary main_cst_0 (fun i => FloatOps.ofBits .f32 (lit1 (S6x2.rowMajor i))),
    unary main_cst main_v0 ((transpose S2x3 [1, 0] · transposes_S3x2_S2x3_1_0) : (⟨S3x2, .f32⟩ : BufTy).Contents (Elt F) → (⟨S2x3, .f32⟩ : BufTy).Contents (Elt F)),
    binary main_arg0 main_v0 main_v1 ((fun l r => Host.dotGeneral dot_S4194304x2_S2x3_S4194304x3_1_0_0_1_n_n none l r) : (⟨S4194304x2, .f32⟩ : BufTy).Contents (Elt F) → (⟨S2x3, .f32⟩ : BufTy).Contents (Elt F) → (⟨S4194304x3, .f32⟩ : BufTy).Contents (Elt F)),
    unary main_v1 main_v2 (Host.cos : (⟨S4194304x3, .f32⟩ : BufTy).Contents (Elt F) → (⟨S4194304x3, .f32⟩ : BufTy).Contents (Elt F)),
    nullary main_cst_1 (constant S_ .f32 0x00000000#32),
    binary main_v2 main_cst_1 main_v3 ((fun x v => Host.reduceAdd x v reducesTo_S4194304x3_S4194304_d1 h_S_) : (⟨S4194304x3, .f32⟩ : BufTy).Contents (Elt F) → (⟨S_, .f32⟩ : BufTy).Contents (Elt F) → (⟨S4194304, .f32⟩ : BufTy).Contents (Elt F)),
    nullary main_cst_2 (constant S_ .f32 0xC0333333#32),
    unary main_cst_2 main_v4 (broadcastInDim S4194304 ![] bcast_S_S4194304 : (⟨S_, .f32⟩ : BufTy).Contents (Elt F) → (⟨S4194304, .f32⟩ : BufTy).Contents (Elt F)),
    binary main_v4 main_v3 main_v5 (mulf : (⟨S4194304, .f32⟩ : BufTy).Contents (Elt F) → (⟨S4194304, .f32⟩ : BufTy).Contents (Elt F) → (⟨S4194304, .f32⟩ : BufTy).Contents (Elt F)),
    unary main_v1 main_v6 (Host.sin : (⟨S4194304x3, .f32⟩ : BufTy).Contents (Elt F) → (⟨S4194304x3, .f32⟩ : BufTy).Contents (Elt F)),
    nullary main_cst_3 (constant S_ .f32 0x00000000#32),
    binary main_v6 main_cst_3 main_v7 ((fun x v => Host.reduceAdd x v reducesTo_S4194304x3_S4194304_d1 h_S_) : (⟨S4194304x3, .f32⟩ : BufTy).Contents (Elt F) → (⟨S_, .f32⟩ : BufTy).Contents (Elt F) → (⟨S4194304, .f32⟩ : BufTy).Contents (Elt F)),
    nullary main_cst_4 (constant S_ .f32 0xC0333333#32),
    unary main_cst_4 main_v8 (broadcastInDim S4194304 ![] bcast_S_S4194304 : (⟨S_, .f32⟩ : BufTy).Contents (Elt F) → (⟨S4194304, .f32⟩ : BufTy).Contents (Elt F)),
    binary main_v8 main_v7 main_v9 (mulf : (⟨S4194304, .f32⟩ : BufTy).Contents (Elt F) → (⟨S4194304, .f32⟩ : BufTy).Contents (Elt F) → (⟨S4194304, .f32⟩ : BufTy).Contents (Elt F)),
    unary main_cst_0 main_v10 ((transpose S2x6 [1, 0] · transposes_S6x2_S2x6_1_0) : (⟨S6x2, .f32⟩ : BufTy).Contents (Elt F) → (⟨S2x6, .f32⟩ : BufTy).Contents (Elt F)),
    binary main_arg0 main_v10 main_v11 ((fun l r => Host.dotGeneral dot_S4194304x2_S2x6_S4194304x6_1_0_0_1_n_n none l r) : (⟨S4194304x2, .f32⟩ : BufTy).Contents (Elt F) → (⟨S2x6, .f32⟩ : BufTy).Contents (Elt F) → (⟨S4194304x6, .f32⟩ : BufTy).Contents (Elt F)),
    unary main_v11 main_v12 (Host.cos : (⟨S4194304x6, .f32⟩ : BufTy).Contents (Elt F) → (⟨S4194304x6, .f32⟩ : BufTy).Contents (Elt F)),
    nullary main_cst_5 (constant S_ .f32 0x00000000#32),
    binary main_v12 main_cst_5 main_v13 ((fun x v => Host.reduceAdd x v reducesTo_S4194304x6_S4194304_d1 h_S_) : (⟨S4194304x6, .f32⟩ : BufTy).Contents (Elt F) → (⟨S_, .f32⟩ : BufTy).Contents (Elt F) → (⟨S4194304, .f32⟩ : BufTy).Contents (Elt F)),
    nullary main_cst_6 (constant S_ .f32 0xBDCCCCCD#32),
    unary main_cst_6 main_v14 (broadcastInDim S4194304 ![] bcast_S_S4194304 : (⟨S_, .f32⟩ : BufTy).Contents (Elt F) → (⟨S4194304, .f32⟩ : BufTy).Contents (Elt F)),
    binary main_v14 main_v13 main_v15 (mulf : (⟨S4194304, .f32⟩ : BufTy).Contents (Elt F) → (⟨S4194304, .f32⟩ : BufTy).Contents (Elt F) → (⟨S4194304, .f32⟩ : BufTy).Contents (Elt F)),
    binary main_v5 main_v5 main_v16 (mulf : (⟨S4194304, .f32⟩ : BufTy).Contents (Elt F) → (⟨S4194304, .f32⟩ : BufTy).Contents (Elt F) → (⟨S4194304, .f32⟩ : BufTy).Contents (Elt F)),
    nullary main_cst_7 (constant S_ .f32 0x3B23D70A#32),
    unary main_cst_7 main_v17 (broadcastInDim S4194304 ![] bcast_S_S4194304 : (⟨S_, .f32⟩ : BufTy).Contents (Elt F) → (⟨S4194304, .f32⟩ : BufTy).Contents (Elt F)),
    binary main_v17 main_v16 main_v18 (addf : (⟨S4194304, .f32⟩ : BufTy).Contents (Elt F) → (⟨S4194304, .f32⟩ : BufTy).Contents (Elt F) → (⟨S4194304, .f32⟩ : BufTy).Contents (Elt F)),
    binary main_v9 main_v9 main_v19 (mulf : (⟨S4194304, .f32⟩ : BufTy).Contents (Elt F) → (⟨S4194304, .f32⟩ : BufTy).Contents (Elt F) → (⟨S4194304, .f32⟩ : BufTy).Contents (Elt F)),
    binary main_v18 main_v19 main_v20 (addf : (⟨S4194304, .f32⟩ : BufTy).Contents (Elt F) → (⟨S4194304, .f32⟩ : BufTy).Contents (Elt F) → (⟨S4194304, .f32⟩ : BufTy).Contents (Elt F)),
    unary main_v20 main_v21 (Host.sqrt : (⟨S4194304, .f32⟩ : BufTy).Contents (Elt F) → (⟨S4194304, .f32⟩ : BufTy).Contents (Elt F)),
    binary main_v15 main_v21 main_v22 (subf : (⟨S4194304, .f32⟩ : BufTy).Contents (Elt F) → (⟨S4194304, .f32⟩ : BufTy).Contents (Elt F) → (⟨S4194304, .f32⟩ : BufTy).Contents (Elt F)),
    binary main_v15 main_v21 main_v23 (addf : (⟨S4194304, .f32⟩ : BufTy).Contents (Elt F) → (⟨S4194304, .f32⟩ : BufTy).Contents (Elt F) → (⟨S4194304, .f32⟩ : BufTy).Contents (Elt F)) ]
abbrev opsTail : List (HloOp τ sig (Elt F)) :=
  [ unary main_v22 main_v24 (broadcastInDim S4194304x1 ![0] bcast_S4194304_S4194304x1_0 : (⟨S4194304, .f32⟩ : BufTy).Contents (Elt F) → (⟨S4194304x1, .f32⟩ : BufTy).Contents (Elt F)),
    unary main_v23 main_v25 (broadcastInDim S4194304x1 ![0] bcast_S4194304_S4194304x1_0 : (⟨S4194304, .f32⟩ : BufTy).Contents (Elt F) → (⟨S4194304x1, .f32⟩ : BufTy).Contents (Elt F)),
    binary main_v24 main_v25 main_v26 ((fun a b => concatenate S4194304x2 1 [⟨S4194304x1, a⟩, ⟨S4194304x1, b⟩] concatenates_S4194304x1_S4194304x1_S4194304x2_d1) : (⟨S4194304x1, .f32⟩ : BufTy).Contents (Elt F) → (⟨S4194304x1, .f32⟩ : BufTy).Contents (Elt F) → (⟨S4194304x2, .f32⟩ : BufTy).Contents (Elt F)),
    nullary main_cst_8 (constant S_ .f32 0x203D26D1#32),
    unary main_cst_8 main_v27 (broadcastInDim S4194304x2 ![] bcast_S_S4194304x2 : (⟨S_, .f32⟩ : BufTy).Contents (Elt F) → (⟨S4194304x2, .f32⟩ : BufTy).Contents (Elt F)),
    binary main_v26 main_v27 main_v28 (mulf : (⟨S4194304x2, .f32⟩ : BufTy).Contents (Elt F) → (⟨S4194304x2, .f32⟩ : BufTy).Contents (Elt F) → (⟨S4194304x2, .f32⟩ : BufTy).Contents (Elt F)) ]
theorem ops_split : (ops : List (HloOp τ sig (Elt F))) = opsHead ++ opsTail := rfl

/-- Running two stretches of operations one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-! ## The stages -/

/-- Row n, column j: the inner product of wave vector n with nearest-neighbour vector j. -/
def nnPhases (k : FVec F S4194304x2 .f32) : FVec F S4194304x3 .f32 :=
  Host.dotGeneral dot_S4194304x2_S2x3_S4194304x3_1_0_0_1_n_n none k
    (transpose S2x3 [1, 0] (fun i => FloatOps.ofBits .f32 (lit0 (S3x2.rowMajor i))) transposes_S3x2_S2x3_1_0)

/-- Row n, column j: the inner product of wave vector n with next-nearest-neighbour vector j. -/
def nnnPhases (k : FVec F S4194304x2 .f32) : FVec F S4194304x6 .f32 :=
  Host.dotGeneral dot_S4194304x2_S2x6_S4194304x6_1_0_0_1_n_n none k
    (transpose S2x6 [1, 0] (fun i => FloatOps.ofBits .f32 (lit1 (S6x2.rowMajor i))) transposes_S6x2_S2x6_1_0)

/-- Re f and Im f along the list of wave vectors. -/
def refRe (k : FVec F S4194304x2 .f32) : FVec F S4194304 .f32 :=
  mulf (broadcastInDim S4194304 ![] bcast_S_S4194304 (constant S_ .f32 0xC0333333#32))
    (Host.reduceAdd (Host.cos (nnPhases k)) (constant S_ .f32 0x00000000#32) reducesTo_S4194304x3_S4194304_d1 h_S_)
def refIm (k : FVec F S4194304x2 .f32) : FVec F S4194304 .f32 :=
  mulf (broadcastInDim S4194304 ![] bcast_S_S4194304 (constant S_ .f32 0xC0333333#32))
    (Host.reduceAdd (Host.sin (nnPhases k)) (constant S_ .f32 0x00000000#32) reducesTo_S4194304x3_S4194304_d1 h_S_)

/-- The diagonal element along the list. -/
def refDiag (k : FVec F S4194304x2 .f32) : FVec F S4194304 .f32 :=
  mulf (broadcastInDim S4194304 ![] bcast_S_S4194304 (constant S_ .f32 0xBDCCCCCD#32))
    (Host.reduceAdd (Host.cos (nnnPhases k)) (constant S_ .f32 0x00000000#32) reducesTo_S4194304x6_S4194304_d1 h_S_)

/-- The half gap along the list. -/
def refGap (k : FVec F S4194304x2 .f32) : FVec F S4194304 .f32 :=
  Host.sqrt (addf (addf (broadcastInDim S4194304 ![] bcast_S_S4194304 (constant S_ .f32 0x3B23D70A#32)) (mulf (refRe k) (refRe k)))
    (mulf (refIm k) (refIm k)))

/-- The result: the two bands as two columns, scaled. -/
def refOut (k : FVec F S4194304x2 .f32) : FVec F S4194304x2 .f32 :=
  mulf (concatenate S4194304x2 1
      [⟨S4194304x1, broadcastInDim S4194304x1 ![0] bcast_S4194304_S4194304x1_0 (subf (refDiag k) (refGap k))⟩,
       ⟨S4194304x1, broadcastInDim S4194304x1 ![0] bcast_S4194304_S4194304x1_0 (addf (refDiag k) (refGap k))⟩]
      concatenates_S4194304x1_S4194304x1_S4194304x2_d1)
    (broadcastInDim S4194304x2 ![] bcast_S_S4194304x2 (constant S_ .f32 0x203D26D1#32))

/-! ## The run -/

/-- The last six operations, from any contents: the two band vectors as columns, scaled. -/
theorem tail_result (W : Valuation τ sig (Elt F)) :
    after opsTail W (Proc.devRef .tc main_v28)
      = mulf (concatenate S4194304x2 1
          [⟨S4194304x1, broadcastInDim S4194304x1 ![0] bcast_S4194304_S4194304x1_0 (W (Proc.devRef .tc main_v22))⟩,
           ⟨S4194304x1, broadcastInDim S4194304x1 ![0] bcast_S4194304_S4194304x1_0 (W (Proc.devRef .tc main_v23))⟩]
          concatenates_S4194304x1_S4194304x1_S4194304x2_d1)
        (broadcastInDim S4194304x2 ![] bcast_S_S4194304x2 (constant S_ .f32 0x203D26D1#32)) := by
  after_results

/-- The lower band vector after the first stretch. -/
theorem lower_stage (V : Valuation τ sig (Elt F)) :
    after opsHead V (Proc.devRef .tc main_v22)
      = subf (refDiag (V (Proc.devRef .tc main_arg0))) (refGap (V (Proc.devRef .tc main_arg0))) := by
  after_results_simp
  rfl

/-- The upper band vector after the first stretch. -/
theorem upper_stage (V : Valuation τ sig (Elt F)) :
    after opsHead V (Proc.devRef .tc main_v23)
      = addf (refDiag (V (Proc.devRef .tc main_arg0))) (refGap (V (Proc.devRef .tc main_arg0))) := by
  after_results_simp
  rfl

/-- The result buffer after all the operations. -/
theorem out_eq (V : Valuation τ sig (Elt F)) :
    after ops V (Proc.devRef .tc main_v28) = refOut (V (Proc.devRef .tc main_arg0)) := by
  rw [ops_split, after_append, tail_result, lower_stage, upper_stage]
  rfl

/-- From any memory with zero counters every weakly fair execution terminates, the result buffer at the stages'
    composition of the argument as launched, the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = refOut (m ((c.tc : Thread nD τ).loc main_arg0))
      ∧ r.2.mem ((c.tc : Thread nD τ).loc main_arg0) = m ((c.tc : Thread nD τ).loc main_arg0) :=
  (θ_run defs _ _).mono (fun _ h c => ⟨(h c main_v28).trans (out_eq (launchContents m c)),
      (h c main_arg0).trans (by after_results_simp)⟩)
    (run_seq scopedRefs_eq scopedSems_eq defs main (fun _ => ops) main_eq (fun _ => ops_sub) m ρ)

end Cert.ReferenceIdeal.Stages

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.RefValue.lean ====
/-
  The reference's result is the two bands: each stage read at one wave vector.

  At wave vector n the product with a transposed table is the two-term sum k(n,0)·v(j,0) + k(n,1)·v(j,1) over the lattice
  vector j's two coordinates, the table's entries being the float patterns listed row by row; a sum along a row from the
  zero pattern is zero plus the finite sum of the row, which regrouped from the left is the running sum; the remaining
  operations act entry by entry.  The two columns are read one at a time.
-/
import proofs.«143758_j32530082300274_1_alg».proof.Proof.RefRun
import proofs.«143758_j32530082300274_1_alg».proof.Proof.BandSpec
import proofs.«143758_j32530082300274_1_alg».proof.Proof.LibMatmulPlain

noncomputable section

namespace Cert.ReferenceIdeal.AtIndex

open Cert.ReferenceIdeal Cert.ReferenceIdeal.Gen Cert.ReferenceIdeal.Stages Cert.Bands
open Idealize.ShloMosaic Idealize.ShloMosaic.ValueIdx
open scoped BigOperators

/-- The nearest-neighbour table, entry (j, l), is the listed pattern. -/
theorem nnTable_apply (j : Fin 3) (l : Fin 2) :
    FloatOps.ofBits (F := Ideal) .f32 (lit0 (S3x2.rowMajor (ix2 j l)))
      = c32 (lit0 ⟨j.val * 2 + l.val, by have := j.isLt; have := l.isLt; omega⟩) := by
  show Ideal.ofBits .f32 (lit0 (S3x2.rowMajor (ix2 j l))) = _
  congr 2
  apply Fin.ext
  rw [Shape.rowMajor_val_two]
  rfl

/-- The next-nearest-neighbour table, entry (j, l), is the listed pattern. -/
theorem nnnTable_apply (j : Fin 6) (l : Fin 2) :
    FloatOps.ofBits (F := Ideal) .f32 (lit1 (S6x2.rowMajor (ix2 j l)))
      = c32 (lit1 ⟨j.val * 2 + l.val, by have := j.isLt; have := l.isLt; omega⟩) := by
  show Ideal.ofBits .f32 (lit1 (S6x2.rowMajor (ix2 j l))) = _
  congr 2
  apply Fin.ext
  rw [Shape.rowMajor_val_two]
  rfl

theorem plain3 : Cert.Gcn.IsPlain dot_S4194304x2_S2x3_S4194304x3_1_0_0_1_n_n := ⟨rfl, rfl, rfl, rfl, rfl, rfl⟩
theorem plain6 : Cert.Gcn.IsPlain dot_S4194304x2_S2x6_S4194304x6_1_0_0_1_n_n := ⟨rfl, rfl, rfl, rfl, rfl, rfl⟩

/-- The inner product of wave vector n with nearest-neighbour vector j. -/
theorem nnPhases_apply (k : FVec Ideal S4194304x2 .f32) (n : Fin 4194304) (j : Fin 3) :
    nnPhases (F := Ideal) k (ix2 n j)
      = phase (lit0 ⟨j.val * 2 + 0, by have := j.isLt; omega⟩) (lit0 ⟨j.val * 2 + 1, by have := j.isLt; omega⟩)
          (k (ix2 n 0)) (k (ix2 n 1)) := by
  unfold nnPhases
  rw [Cert.Gcn.dotGeneral_plain_apply _ plain3 none k _ n j, Fin.sum_univ_two,
    transpose_ix2_apply _ transposes_S3x2_S2x3_1_0 (0 : Fin 2) j, transpose_ix2_apply _ transposes_S3x2_S2x3_1_0 (1 : Fin 2) j,
    nnTable_apply j 0, nnTable_apply j 1]
  rfl

/-- The inner product of wave vector n with next-nearest-neighbour vector j. -/
theorem nnnPhases_apply (k : FVec Ideal S4194304x2 .f32) (n : Fin 4194304) (j : Fin 6) :
    nnnPhases (F := Ideal) k (ix2 n j)
      = phase (lit1 ⟨j.val * 2 + 0, by have := j.isLt; omega⟩) (lit1 ⟨j.val * 2 + 1, by have := j.isLt; omega⟩)
          (k (ix2 n 0)) (k (ix2 n 1)) := by
  unfold nnnPhases
  rw [Cert.Gcn.dotGeneral_plain_apply _ plain6 none k _ n j, Fin.sum_univ_two,
    transpose_ix2_apply _ transposes_S6x2_S2x6_1_0 (0 : Fin 2) j, transpose_ix2_apply _ transposes_S6x2_S2x6_1_0 (1 : Fin 2) j,
    nnnTable_apply j 0, nnnTable_apply j 1]
  rfl

theorem reduces3 : S4194304x3.Reduces [1] S4194304 := by decide
theorem reduces6 : S4194304x6.Reduces [1] S4194304 := by decide

/-- The source index of a row sum: row n, column j. -/
theorem lift3 (n : Fin 4194304) (j : Fin 3) : reduces3.lift (ix1 n) j = ix2 n j :=
  funext fun c => Fin.ext (by match c with | ⟨0, _⟩ => rfl | ⟨1, _⟩ => rfl)
theorem lift6 (n : Fin 4194304) (j : Fin 6) : reduces6.lift (ix1 n) j = ix2 n j :=
  funext fun c => Fin.ext (by match c with | ⟨0, _⟩ => rfl | ⟨1, _⟩ => rfl)

/-- A sum of three from zero, regrouped from the left. -/
theorem sum3 (g : Fin 3 → EReal) : c32 0x00000000#32 + ∑ j : Fin 3, g j = ((c32 0x00000000#32 + g 0) + g 1) + g 2 := by
  rw [Fin.sum_univ_three, ← add_assoc, ← add_assoc]

/-- A sum of six from zero, regrouped from the left. -/
theorem sum6 (g : Fin 6 → EReal) :
    c32 0x00000000#32 + ∑ j : Fin 6, g j = (((((c32 0x00000000#32 + g 0) + g 1) + g 2) + g 3) + g 4) + g 5 := by
  rw [Fin.sum_univ_six, ← add_assoc, ← add_assoc, ← add_assoc, ← add_assoc, ← add_assoc]

theorem refRe_apply (k : FVec Ideal S4194304x2 .f32) (n : Fin 4194304) :
    refRe (F := Ideal) k (ix1 n) = fRe (k (ix2 n 0)) (k (ix2 n 1)) := by
  unfold refRe
  rw [mulf_apply, broadcastInDim_scalar_apply, constant_apply, hostReduceAdd_apply,
    Ideal.hostReduceAdd_single reducesTo_S4194304x3_S4194304_d1 reduces3, constant_apply]
  show c32 0xC0333333#32 * (c32 0x00000000#32 + ∑ j : Fin 3, Host.cos (nnPhases (F := Ideal) k) (reduces3.lift (ix1 n) j)) = _
  rw [sum3]
  simp only [lift3, Host.cos, Ideal.hostUnary_cos_def, nnPhases_apply]
  rfl

theorem refIm_apply (k : FVec Ideal S4194304x2 .f32) (n : Fin 4194304) :
    refIm (F := Ideal) k (ix1 n) = fIm (k (ix2 n 0)) (k (ix2 n 1)) := by
  unfold refIm
  rw [mulf_apply, broadcastInDim_scalar_apply, constant_apply, hostReduceAdd_apply,
    Ideal.hostReduceAdd_single reducesTo_S4194304x3_S4194304_d1 reduces3, constant_apply]
  show c32 0xC0333333#32 * (c32 0x00000000#32 + ∑ j : Fin 3, Host.sin (nnPhases (F := Ideal) k) (reduces3.lift (ix1 n) j)) = _
  rw [sum3]
  simp only [lift3, Host.sin, Ideal.hostUnary_sin_def, nnPhases_apply]
  rfl

theorem refDiag_apply (k : FVec Ideal S4194304x2 .f32) (n : Fin 4194304) :
    refDiag (F := Ideal) k (ix1 n) = diag (k (ix2 n 0)) (k (ix2 n 1)) := by
  unfold refDiag
  rw [mulf_apply, broadcastInDim_scalar_apply, constant_apply, hostReduceAdd_apply,
    Ideal.hostReduceAdd_single reducesTo_S4194304x6_S4194304_d1 reduces6, constant_apply]
  show c32 0xBDCCCCCD#32 * (c32 0x00000000#32 + ∑ j : Fin 6, Host.cos (nnnPhases (F := Ideal) k) (reduces6.lift (ix1 n) j)) = _
  rw [sum6]
  simp only [lift6, Host.cos, Ideal.hostUnary_cos_def, nnnPhases_apply]
  rfl

/-- The host's square root acts entry by entry. -/
theorem sqrt_apply {s : Shape} (x : FVec Ideal s .f32) (i : s.Idx) : Host.sqrt x i = Ideal.sqrt (x i) := rfl

theorem refGap_apply (k : FVec Ideal S4194304x2 .f32) (n : Fin 4194304) :
    refGap (F := Ideal) k (ix1 n) = gap (k (ix2 n 0)) (k (ix2 n 1)) := by
  unfold refGap
  rw [sqrt_apply, addf_apply, addf_apply, mulf_apply, mulf_apply, broadcastInDim_scalar_apply, constant_apply,
    refRe_apply, refIm_apply]
  rfl

/-- The reference's result array is the two bands. -/
theorem refOut_eq (k : FVec Ideal S4194304x2 .f32) :
    refOut (F := Ideal) k = bands bcast_S4194304_S4194304x1_0 concatenates_S4194304x1_S4194304x1_S4194304x2_d1 k := by
  funext i
  obtain ⟨n, s, rfl⟩ : ∃ (n : Fin 4194304) (s : Fin 2), i = ix2 n s := ⟨i 0, i 1, eq_ix2 i⟩
  unfold refOut bands
  rw [mulf_apply, broadcastInDim_scalar_apply, constant_apply]
  show columns bcast_S4194304_S4194304x1_0 concatenates_S4194304x1_S4194304x1_S4194304x2_d1
      (subf (refDiag (F := Ideal) k) (refGap k)) (addf (refDiag k) (refGap k)) (ix2 n s) * _ = _
  match s with
  | ⟨0, _⟩ =>
    show columns _ _ _ _ (ix2 n 0) * _ = columns _ _ _ _ (ix2 n 0)
    rw [columns_apply_zero, columns_apply_zero, subf_apply, refDiag_apply, refGap_apply]
    rfl
  | ⟨1, _⟩ =>
    show columns _ _ _ _ (ix2 n 1) * _ = columns _ _ _ _ (ix2 n 1)
    rw [columns_apply_one, columns_apply_one, addf_apply, refDiag_apply, refGap_apply]
    rfl

end Cert.ReferenceIdeal.AtIndex

end
-- ==== Proof.lean ====
/-
  The certificate: a kernel that evaluates the two energy bands of a two-band lattice Hamiltonian at 4 194 304 wave
  vectors, against the same formula written with array operations.

  The kernel cuts the argument's two columns out, folds each into a 2048 × 2048 square, and on sixteen blocks of 128 rows
  computes, entry by entry, e ∓ sqrt(M² + (Re f)² + (Im f)²) scaled to joules, where Re f and Im f are the hopping
  amplitude times the sums of cos and sin of the wave vector's inner products with three nearest-neighbour vectors, and e
  is the second amplitude times the sum of cos of its inner products with six next-nearest-neighbour vectors; the two
  squares are flattened back and laid as the result's two columns.  The reference forms the inner products as a product
  with a transposed table of the same constants, sums along rows from zero, and scales after laying the columns.

  On the extended reals the two agree at every entry with no condition on the argument: a two-term product sum is the
  two-term sum, a row sum from zero regrouped from the left is the kernel's running sum, cos, sin and sqrt are one function
  on both sides, and the scale acts entry by entry so it commutes with laying columns.  The idealization rewrote nothing,
  so the kernel's idealization is its own text read on the extended reals.
-/
import proofs.«143758_j32530082300274_1_alg».proof.Defs
import proofs.«143758_j32530082300274_1_alg».proof.Proof.Gen.Kernel
import proofs.«143758_j32530082300274_1_alg».proof.Proof.Gen.Kernel.Skeleton
import proofs.«143758_j32530082300274_1_alg».proof.Proof.Gen.Kernel.Launch
import proofs.«143758_j32530082300274_1_alg».proof.Proof.Gen.Kernel.Points
import proofs.«143758_j32530082300274_1_alg».proof.Proof.Gen.Kernel.Frame
import proofs.«143758_j32530082300274_1_alg».proof.Proof.Gen.KernelIdeal
import proofs.«143758_j32530082300274_1_alg».proof.Proof.Gen.KernelIdeal.Skeleton
import proofs.«143758_j32530082300274_1_alg».proof.Proof.Gen.KernelIdeal.Launch
import proofs.«143758_j32530082300274_1_alg».proof.Proof.Gen.KernelIdeal.Points
import proofs.«143758_j32530082300274_1_alg».proof.Proof.Gen.KernelIdeal.Frame
import proofs.«143758_j32530082300274_1_alg».proof.Proof.Gen.ReferenceIdeal
import proofs.«143758_j32530082300274_1_alg».proof.Proof.Gen.Pre_finite_inputs
import proofs.«143758_j32530082300274_1_alg».proof.Proof.KernelValue
import proofs.«143758_j32530082300274_1_alg».proof.Proof.RefValue
import Idealize.ShloMosaic.Adequacy
import Idealize.ShloMosaic.Init

noncomputable section

namespace Cert.Proof

open Idealize.ShloMosaic Idealize.SL.Sem

/-- The word-level kernel runs and keeps its argument. -/
theorem frame_kernel : Cert.frame_Kernel := fun m ρ _ => Cert.Kernel.Gen.frame m ρ

/-- So does the kernel read on the extended reals. -/
theorem frame_ideal : Cert.frame_KernelIdeal := fun m ρ _ => Cert.KernelIdeal.Gen.frame m ρ

/-- The reference runs and keeps its argument: its run with the result dropped. -/
theorem frame_reference : Cert.frame_ReferenceIdeal := fun m ρ _ =>
  (θ_run Cert.ReferenceIdeal.defs _ _).mono (fun _ h c => (h c).2) (Cert.ReferenceIdeal.Stages.run (F := Ideal) m ρ)

/-- The idealization rewrote no operation. -/
theorem preserves : Cert.preserves_Kernel_KernelIdeal := trivial

/-- Both programs end with the two bands of the argument in their result. -/
theorem algebraic : Cert.algebraic_KernelIdeal_ReferenceIdeal := by
  intro m ρ m' ρ' _ hagree
  refine ⟨_, Cert.KernelIdeal.Arrays.run m ρ, ?_⟩
  refine (θ_run Cert.ReferenceIdeal.defs _ _).mono (fun _ h c => ⟨?_, (h c).2⟩)
    (Cert.ReferenceIdeal.Stages.run (F := Ideal) m' ρ')
  rw [(h c).1, Cert.ReferenceIdeal.AtIndex.refOut_eq, hagree c]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
